-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x640 : Shape := ⟨3, ![16, 4096, 640]⟩
abbrev S64x640 : Shape := ⟨2, ![64, 640]⟩
abbrev S_ : Shape := ⟨0, ![]⟩

class Facts : Prop where
  bcast_S_S16x4096x640 : S_.BroadcastsInDim S16x4096x640 (![] : Fin 0 → Fin S16x4096x640.rank)
  reducesTo_S16x4096x640_S_d0_1_2 : S16x4096x640.ReducesTo [0, 1, 2] S_
  h_S_ : 0 < S_.numel
  bcast_S_S64x640 : S_.BroadcastsInDim S64x640 (![] : Fin 0 → Fin S64x640.rank)
  reducesTo_S64x640_S_d0_1 : S64x640.ReducesTo [0, 1] S_

variable [Facts]

def fn {F : FTy → Type} [FloatOps F] (main_arg0 : FVec F S16x4096x640 .f32) (main_arg1 : FVec F S64x640 .f32) (main_arg2 : FVec F S64x640 .f32) : IVec S_ 1 :=
  let main_v0 : FVec F S16x4096x640 .f32 := Host.absf main_arg0
  let main_cst : FVec F S_ .f32 := constant S_ .f32 0x7F800000#32
  let main_v1 : FVec F S16x4096x640 .f32 := broadcastInDim S16x4096x640 ![] bcast_S_S16x4096x640 main_cst
  let main_v2 : IVec S16x4096x640 1 := cmpf .olt main_v0 main_v1
  let main_c : IVec S_ 1 := constantI S_ 1 1#1
  let main_v3 : IVec S_ 1 := (fun x v => Host.reduce IntOp.andi x v reducesTo_S16x4096x640_S_d0_1_2 h_S_) main_v2 main_c
  let main_v4 : FVec F S64x640 .f32 := Host.absf main_arg1
  let main_cst_0 : FVec F S_ .f32 := constant S_ .f32 0x7F800000#32
  let main_v5 : FVec F S64x640 .f32 := broadcastInDim S64x640 ![] bcast_S_S64x640 main_cst_0
  let main_v6 : IVec S64x640 1 := cmpf .olt main_v4 main_v5
  let main_c_1 : IVec S_ 1 := constantI S_ 1 1#1
  let main_v7 : IVec S_ 1 := (fun x v => Host.reduce IntOp.andi x v reducesTo_S64x640_S_d0_1 h_S_) main_v6 main_c_1
  let main_v8 : IVec S_ 1 := andi main_v3 main_v7
  let main_v9 : FVec F S64x640 .f32 := Host.absf main_arg2
  let main_cst_2 : FVec F S_ .f32 := constant S_ .f32 0x7F800000#32
  let main_v10 : FVec F S64x640 .f32 := broadcastInDim S64x640 ![] bcast_S_S64x640 main_cst_2
  let main_v11 : IVec S64x640 1 := cmpf .olt main_v9 main_v10
  let main_c_3 : IVec S_ 1 := constantI S_ 1 1#1
  let main_v12 : IVec S_ 1 := (fun x v => Host.reduce IntOp.andi x v reducesTo_S64x640_S_d0_1 h_S_) main_v11 main_c_3
  let main_v13 : IVec S_ 1 := andi main_v8 main_v12
  main_v13
-- ==== Kernel.lean ====
abbrev S16x4096x640 : Shape := ⟨3, ![16, 4096, 640]⟩
abbrev S64x640 : Shape := ⟨2, ![64, 640]⟩
abbrev S1x1024x640 : Shape := ⟨3, ![1, 1024, 640]⟩
abbrev S1024x640 : Shape := ⟨2, ![1024, 640]⟩
abbrev S1024x64 : Shape := ⟨2, ![1024, 64]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S16x4096x640, .f32⟩
  | .hbm, ⟨1, _⟩ => ⟨S64x640, .f32⟩
  | .hbm, ⟨2, _⟩ => ⟨S64x640, .f32⟩
  | .hbm, ⟨3, _⟩ => ⟨S16x4096x640, .f32⟩
  | .local _ .vmem, ⟨0, _⟩ => ⟨S1x1024x640, .f32⟩
  | .local _ .vmem, ⟨1, _⟩ => ⟨S1x1024x640, .f32⟩
  | .local _ .vmem, ⟨2, _⟩ => ⟨S64x640, .f32⟩
  | .local _ .vmem, ⟨3, _⟩ => ⟨S64x640, .f32⟩
  | .local _ .vmem, ⟨4, _⟩ => ⟨S1x1024x640, .f32⟩
  | .local _ .vmem, ⟨5, _⟩ => ⟨S1x1024x640, .f32⟩
  | _, _ => ⟨S16x4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x640_S1x1024x640_0_0_0 : ∀ a, (![0, 0, 0] : Fin 3 → Nat) a + S1x1024x640.size a ≤ S1x1024x640.size a
  h_S1x1024x640 : 0 < S1x1024x640.numel
  shapeCasts_S1x1024x640_S1024x640 : S1x1024x640.ShapeCasts S1024x640
  bitsLt_bf16_f32 : FTy.bits .bf16 < FTy.bits .f32
  inb_S64x640_S64x640_0_0 : ∀ a, (![0, 0] : Fin 2 → Nat) a + S64x640.size a ≤ S64x640.size a
  h_S64x640 : 0 < S64x640.numel
  reduces_S1024x64_S1024 : S1024x64.Reduces [1] S1024
  shapeCasts_S1024_S1024x1 : S1024.ShapeCasts S1024x1
  broadcasts_S1024x1_S1024x64 : S1024x1.Broadcasts S1024x64
  shapeCasts_S1024x640_S1x1024x640 : S1024x640.ShapeCasts S1x1024x640
  dot_S1024x640_S64x640_S1024x64_1_1_0_0_n_n_wf : DotDims.WF S1024x640 S64x640 S1024x64 [1] [1] [0] [0] [] []
  dot_S1024x64_S64x640_S1024x640_1_0_0_1_n_n_wf : DotDims.WF S1024x64 S64x640 S1024x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x640.size a ≤ S16x4096x640.size a
  hwx0_0 : ∀ i : grid0.Coords, EltTy.bits .f32 = 32 ∨ (Rect.block (s := S16x4096x640) S1x1024x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x640.size a ≤ S64x640.size a
  hwx0_1 : ∀ i : grid0.Coords, EltTy.bits .f32 = 32 ∨ (Rect.block (s := S64x640) S64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x640.size a ≤ S64x640.size a
  hwx0_2 : ∀ i : grid0.Coords, EltTy.bits .f32 = 32 ∨ (Rect.block (s := S64x640) S64x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x640.size a ≤ S16x4096x640.size a
  hwx0_3 : ∀ i : grid0.Coords, EltTy.bits .f32 = 32 ∨ (Rect.block (s := S16x4096x640) S1x1024x640.size (cc0_transform_3 i) (hinb0_3 i)).WholeWords (EltTy.packing .f32)

variable [Facts₀]

def dot_S1024x640_S64x640_S1024x64_1_1_0_0_n_n : DotDims S1024x640 S64x640 S1024x64 where
  lhsContracting := [1]
  rhsContracting := [1]
  lhsNonContracting := [0]
  rhsNonContracting := [0]
  lhsBatch := []
  rhsBatch := []
  wf := dot_S1024x640_S64x640_S1024x64_1_1_0_0_n_n_wf
def dot_S1024x64_S64x640_S1024x640_1_0_0_1_n_n : DotDims S1024x64 S64x640 S1024x640 where
  lhsContracting := [1]
  rhsContracting := [0]
  lhsNonContracting := [0]
  rhsNonContracting := [1]
  lhsBatch := []
  rhsBatch := []
  wf := dot_S1024x64_S64x640_S1024x640_1_0_0_1_n_n_wf

abbrev win0_0 : Pipeline.Window sig grid0 :=
  Pipeline.Window.ofSpec (Memref.whole main_arg0) S1x1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x640 : Shape := ⟨3, ![16, 4096, 640]⟩
abbrev S64x640 : Shape := ⟨2, ![64, 640]⟩
abbrev S16x4096x64 : Shape := ⟨3, ![16, 4096, 64]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x4096x640, .f32⟩
  | .hbm, ⟨1, _⟩ => ⟨S64x640, .f32⟩
  | .hbm, ⟨2, _⟩ => ⟨S64x640, .f32⟩
  | .hbm, ⟨3, _⟩ => ⟨S16x4096x64, .f32⟩
  | .hbm, ⟨4, _⟩ => ⟨S_, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S16x4096x1, .f32⟩
  | .hbm, ⟨10, _⟩ => ⟨S16x4096x64, .f32⟩
  | .hbm, ⟨11, _⟩ => ⟨S16x4096x64, .f32⟩
  | .hbm, ⟨12, _⟩ => ⟨S16x4096x64, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S16x4096x64, .f32⟩
  | .hbm, ⟨17, _⟩ => ⟨S16x4096x64, .f32⟩
  | .hbm, ⟨18, _⟩ => ⟨S16x4096x640, .f32⟩
  | _, _ => ⟨S16x4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x64_0_1_2 : S16x4096x1.BroadcastsInDim S16x4096x64 (![0, 1, 2] : Fin 3 → Fin S16x4096x64.rank)
  dot_S16x4096x640_S64x640_S16x4096x64_2_1_01_0_n_n_wf : DotDims.WF S16x4096x640 S64x640 S16x4096x64 [2] [1] [0, 1] [0] [] []
  dot_S16x4096x64_S64x640_S16x4096x640_2_0_01_1_n_n_wf : DotDims.WF S16x4096x64 S64x640 S16x4096x640 [2] [0] [0, 1] [1] [] []

variable [Facts₀]

def dot_S16x4096x640_S64x640_S16x4096x64_2_1_01_0_n_n : DotDims S16x4096x640 S64x640 S16x4096x64 where
  lhsContracting := [2]
  rhsContracting := [1]
  lhsNonContracting := [0, 1]
  rhsNonContracting := [0]
  lhsBatch := []
  rhsBatch := []
  wf := dot_S16x4096x640_S64x640_S16x4096x64_2_1_01_0_n_n_wf
def dot_S16x4096x64_S64x640_S16x4096x640_2_0_01_1_n_n : DotDims S16x4096x64 S64x640 S16x4096x640 where
  lhsContracting := [2]
  rhsContracting := [0]
  lhsNonContracting := [0, 1]
  rhsNonContracting := [1]
  lhsBatch := []
  rhsBatch := []
  wf := dot_S16x4096x64_S64x640_S16x4096x640_2_0_01_1_n_n_wf

class Facts : Prop extends Facts₀ where

variable [Facts]
-- ==== Proof.RowAttention.lean ====
/-
  What both programs compute, written once over the extended reals.

  Every row (b, n) of `x : [16, 4096, 640]` is scored against the 64 rows of a key table `mk : [64, 640]`,
  `s m = ∑ k, x[b, n, k] · mk[m, k]`; the scores are turned into weights by the shifted soft-max
  `w m = exp (s m − p) / ∑ k, exp (s k − p)`, where the shift `p` is the row's largest score taken from −∞
  (`p = max (−∞) (max over m of s m, from −∞)`); and the result is the weighted combination of the rows of a value
  table `mv : [64, 640]`, `out[b, n, d] = ∑ m, w m · mv[m, d]`.

  Nothing here needs the inputs finite: the two programs spell this very expression, term for term, and differ only in
  how a row of the array is cut into blocks and in the neutral `0 +` the host puts in front of its sum.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.RowAttention

/-- The pattern of −∞, the value both maxima start from. It is never evaluated: both programs carry the same word. -/
abbrev negInf : EReal := Ideal.ofBits .f32 0xFF800000#32

/-- The shift of a row of scores: its maximum from −∞, once more against −∞. -/
def peak (s : Fin 64 → EReal) : EReal := max negInf (Finset.univ.fold max negInf s)

/-- The shifted exponential of score `m`. -/
def shifted (s : Fin 64 → EReal) (m : Fin 64) : EReal := Ideal.exp (s m - peak s)

/-- The soft-max weight of slot `m`: its shifted exponential over the sum of all 64. -/
def weight (s : Fin 64 → EReal) (m : Fin 64) : EReal := Ideal.div (shifted s m) (∑ k : Fin 64, shifted s k)

/-- The weighted combination of 64 values by the soft-max weights of 64 scores. -/
def combine (s v : Fin 64 → EReal) : EReal := ∑ m : Fin 64, weight s m * v m

/-- The scores of row (b, n): its inner products with the 64 key rows. -/
def scores (x : (⟨3, ![16, 4096, 640]⟩ : Shape).Idx → EReal) (mk : (⟨2, ![64, 640]⟩ : Shape).Idx → EReal)
    (b : Fin 16) (n : Fin 4096) : Fin 64 → EReal :=
  fun m => ∑ k : Fin 640, x (ix3 b n k) * mk (ix2 m k)

/-- The whole result, index by index. -/
def attend (x : (⟨3, ![16, 4096, 640]⟩ : Shape).Idx → EReal) (mk mv : (⟨2, ![64, 640]⟩ : Shape).Idx → EReal) :
    (⟨3, ![16, 4096, 640]⟩ : Shape).Idx → EReal :=
  fun i => combine (scores x mk (i 0) (i 1)) (fun m => mv (ix2 m (i 2)))

/-- The result at explicit coordinates. -/
theorem attend_ix3 (x : (⟨3, ![16, 4096, 640]⟩ : Shape).Idx → EReal) (mk mv : (⟨2, ![64, 640]⟩ : Shape).Idx → EReal)
    (b : Fin 16) (n : Fin 4096) (d : Fin 640) :
    attend x mk mv (ix3 b n d) = combine (scores x mk b n) (fun m => mv (ix2 m d)) := rfl

end Cert.RowAttention

end
-- ==== Proof.HostRows.lean ====
/-
  The host program's result, read index by index, is the row attention of `RowAttention.lean`.

  The host computes the scores of all 16 · 4096 rows at once (a contraction over the last axis), takes each row's
  maximum from −∞ and once more against −∞, subtracts it, exponentiates, sums each row from `0`, divides, and contracts
  the weights with the value table. Read at an index (b, n, d) every stage names the same row (b, n): the broadcasts
  back to [16, 4096, 64] only repeat the row's shift and the row's sum along the slot axis.
-/
import proofs.«136272_j88072599372329_1_alg».proof.Proof.Gen.ReferenceIdeal.Read
import proofs.«136272_j88072599372329_1_alg».proof.Proof.RowAttention
import Idealize.ShloMosaic.PureOps.Reduce
import Idealize.ShloMosaic.PureOps.Ideal.Laws
import Idealize.ShloMosaic.Lib.ValueIdx

noncomputable section

open scoped BigOperators

namespace Cert.ReferenceIdeal.HostRows

open Cert.ReferenceIdeal Cert.ReferenceIdeal.Gen Cert.ReferenceIdeal.Read
open Idealize.ShloMosaic Idealize.ShloMosaic.ValueIdx Cert.RowAttention

variable (x0 : (⟨S16x4096x640, .f32⟩ : BufTy).Contents (Elt Ideal)) (x1 x2 : (⟨S64x640, .f32⟩ : BufTy).Contents (Elt Ideal))

/-- The first contraction at (b, n, m) is the score of row (b, n) against key row m. -/
theorem score_eq (b : Fin 16) (n : Fin 4096) (m : Fin 64) :
    val_main_v0 (F := Ideal) x0 x1 (ix3 b n m) = scores x0 x1 b n m := by
  rw [val_main_v0_apply]
  refine Finset.sum_congr rfl fun k _ => ?_
  have el : lidx_main_v0 (ix3 b n m) k = ix3 b n k :=
    funext fun a => Fin.ext (by match a with | ⟨0, _⟩ => rfl | ⟨1, _⟩ => rfl | ⟨2, _⟩ => rfl)
  have er : ridx_main_v0 (ix3 b n m) k = ix2 m k :=
    funext fun a => Fin.ext (by match a with | ⟨0, _⟩ => rfl | ⟨1, _⟩ => rfl)
  rw [el, er]

/-- The slot axis is the one the host's two reductions drop. -/
theorem dropsSlots : S16x4096x64.Reduces [2] S16x4096 := by decide

/-- Putting slot m back into row (b, n) gives the index (b, n, m). -/
theorem lift_row (b : Fin 16) (n : Fin 4096) (m : Fin 64) : dropsSlots.lift (ix2 b n) m = ix3 b n m :=
  funext fun a => Fin.ext (by match a with | ⟨0, _⟩ => rfl | ⟨1, _⟩ => rfl | ⟨2, _⟩ => rfl)

/-- The row's maximum from −∞, once more against the broadcast −∞, is the row's shift. -/
theorem peak_eq (b : Fin 16) (n : Fin 4096) :
    val_main_v3 (F := Ideal) x0 x1 (ix2 b n) = peak (scores x0 x1 b n) := by
  rw [val_main_v3_apply, val_main_v2_apply, val_main_cst_0_apply]
  unfold val_main_v1
  have hfold := Host.reduce_eq_fold_single (FloatOps.maximumf (F := Ideal) (φ := .f32)) (val_main_v0 (F := Ideal) x0 x1)
    (val_main_cst (F := Ideal)) reducesTo_S16x4096x64_S16x4096_d2 dropsSlots h_S_ (ix2 b n)
  refine (congrArg (FloatOps.maximumf (F := Ideal) (φ := .f32) (FloatOps.ofBits FTy.f32 0xFF800000#32)) hfold).trans ?_
  have hs : (val_main_v0 (F := Ideal) x0 x1 ∘ dropsSlots.lift (ix2 b n)) = scores x0 x1 b n :=
    funext fun (m : Fin 64) =>
      (congrArg (val_main_v0 (F := Ideal) x0 x1) (lift_row b n m)).trans (score_eq x0 x1 b n m)
  rw [hs]
  rfl

/-- The broadcast of the shifts back to [16, 4096, 64] repeats row (b, n)'s shift at every slot, so the exponential
    the host takes at (b, n, m) is the shifted exponential of score m. -/
theorem shifted_eq (b : Fin 16) (n : Fin 4096) (m : Fin 64) :
    val_main_v7 (F := Ideal) x0 x1 (ix3 b n m) = shifted (scores x0 x1 b n) m := by
  rw [val_main_v7_apply, val_main_v6_apply, val_main_v5_apply, val_main_v4_apply]
  have e : idx_main_v4 (idx_main_v5 (ix3 b n m)) = ix2 b n :=
    funext fun a => Fin.ext (by match a with | ⟨0, _⟩ => rfl | ⟨1, _⟩ => rfl)
  rw [e, peak_eq, score_eq]
  rfl

/-- The host's row sum, started from the zero word, is the sum of the row's 64 shifted exponentials. -/
theorem rowSum_eq (b : Fin 16) (n : Fin 4096) :
    val_main_v8 (F := Ideal) x0 x1 (ix2 b n) = ∑ k : Fin 64, shifted (scores x0 x1 b n) k := by
  rw [val_main_v8_apply, val_main_cst_1_apply]
  show Ideal.ofBits .f32 0x00000000#32 + _ = _
  rw [Ideal.ofBits_zero_f32, zero_add]
  refine Finset.sum_congr rfl fun k _ => ?_
  have e : idx_main_v8 (ix2 b n) k = ix3 b n k :=
    funext fun a => Fin.ext (by match a with | ⟨0, _⟩ => rfl | ⟨1, _⟩ => rfl | ⟨2, _⟩ => rfl)
  rw [e, shifted_eq]

/-- The quotient the host takes at (b, n, m) is the soft-max weight of slot m in row (b, n). -/
theorem weight_eq (b : Fin 16) (n : Fin 4096) (m : Fin 64) :
    val_main_v11 (F := Ideal) x0 x1 (ix3 b n m) = weight (scores x0 x1 b n) m := by
  rw [val_main_v11_apply, val_main_v10_apply, val_main_v9_apply]
  have e : idx_main_v9 (idx_main_v10 (ix3 b n m)) = ix2 b n :=
    funext fun a => Fin.ext (by match a with | ⟨0, _⟩ => rfl | ⟨1, _⟩ => rfl)
  rw [e, rowSum_eq, shifted_eq]
  rfl

/-- The host's result array is the row attention of its three arguments. -/
theorem result_eq : val_main_v12 (F := Ideal) x0 x1 x2 = attend x0 x1 x2 := by
  funext i
  obtain ⟨b, n, d, rfl⟩ : ∃ (b : Fin 16) (n : Fin 4096) (d : Fin 640), i = ix3 b n d := ⟨i 0, i 1, i 2, eq_ix3 i⟩
  rw [attend_ix3, val_main_v12_apply]
  unfold combine
  refine Finset.sum_congr rfl fun m _ => ?_
  have el : lidx_main_v12 (ix3 b n d) m = ix3 b n m :=
    funext fun a => Fin.ext (by match a with | ⟨0, _⟩ => rfl | ⟨1, _⟩ => rfl | ⟨2, _⟩ => rfl)
  have er : ridx_main_v12 (ix3 b n d) m = ix2 m d :=
    funext fun a => Fin.ext (by match a with | ⟨0, _⟩ => rfl | ⟨1, _⟩ => rfl)
  rw [el, er, weight_eq]

end Cert.ReferenceIdeal.HostRows

end
-- ==== Proof.BlockRows.lean ====
/-
  What the kernel body computes on one block, read index by index.

  A block is 1024 consecutive rows of one batch entry of `x`, held as [1, 1024, 640], beside the whole key and value
  tables. The body scores the 1024 rows against the 64 key rows on the matrix unit (into a zero accumulator), takes
  each row's maximum over the 64 slots from −∞ and once more against −∞, subtracts it, exponentiates, sums each row over
  the slots, divides, and multiplies the [1024, 64] weights with the value table (again into zeros). At the ideal
  values a change of float format is the identity and a matrix product into zeros is the plain sum of products, so
  entry (0, r, d) of the block the body stores is the row attention of row r of the block: `combine` of that row's scores
  and of column d of the value table.
-/
import proofs.«136272_j88072599372329_1_alg».proof.Proof.Gen.KernelIdeal.Skeleton
import proofs.«136272_j88072599372329_1_alg».proof.Proof.RowAttention
import Idealize.ShloMosaic.Lib.Pipeline.Value
import Idealize.ShloMosaic.Lib.ValueIdx
import Idealize.ShloMosaic.PureOps.Reduce
import Idealize.ShloMosaic.PureOps.Ideal.Laws

noncomputable section

open scoped BigOperators

namespace Cert.KernelIdeal.BlockRows

open Cert.KernelIdeal Cert.KernelIdeal.Gen
open Idealize.ShloMosaic Idealize.ShloMosaic.ValueIdx Cert.RowAttention

/-! ## The layout steps at an index -/

section Layout
variable {α : Type}

/-- Dropping the block's leading unit axis: entry (r, k) of the [1024, 640] view is entry (0, r, k) of the block. -/
theorem dropLead_apply (v : S1x1024x640.Idx → α) (h : S1x1024x640.ShapeCasts S1024x640) (r : Fin 1024) (k : Fin 640) :
    shapeCast S1024x640 v h (ix2 r k) = v (ix3 (0 : Fin 1) r k) := by
  refine shapeCast_apply v h (ix2 r k) (ix3 (0 : Fin 1) r k) ?_
  rw [Shape.rowMajor_val_three, Shape.rowMajor_val_two]
  show ((0 : Nat) * 1024 + r.val) * 640 + k.val = r.val * 640 + k.val
  omega

/-- Putting the unit axis back: entry (0, r, d) of the stored block is entry (r, d) of the [1024, 640] product. -/
theorem addLead_apply (v : S1024x640.Idx → α) (h : S1024x640.ShapeCasts S1x1024x640) (r : Fin 1024) (d : Fin 640) :
    shapeCast S1x1024x640 v h (ix3 (0 : Fin 1) r d) = v (ix2 r d) := by
  refine shapeCast_apply v h (ix3 (0 : Fin 1) r d) (ix2 r d) ?_
  rw [Shape.rowMajor_val_three, Shape.rowMajor_val_two]
  show r.val * 640 + d.val = ((0 : Nat) * 1024 + r.val) * 640 + d.val
  omega

/-- A per-row value, turned into a column and repeated along the 64 slots, reads the row's value at every slot. -/
theorem alongSlots_apply (v : S1024.Idx → α) (h₁ : S1024.ShapeCasts S1024x1) (h₂ : S1024x1.Broadcasts S1024x64)
    (r : Fin 1024) (m : Fin 64) :
    broadcastTo S1024x64 (shapeCast S1024x1 v h₁) h₂ (ix2 r m) = v (ix1 r) := by
  rw [broadcastTo_apply _ h₂ (ix2 r m) (ix2 r (0 : Fin 1)) (fun a => by
    match a with
    | ⟨0, _⟩ => show r.val = if (1024 : Nat) = 1 then 0 else r.val; rw [if_neg (by decide)]
    | ⟨1, _⟩ => show (0 : Nat) = if (1 : Nat) = 1 then 0 else m.val; rw [if_pos rfl])]
  refine shapeCast_apply v h₁ (ix2 r (0 : Fin 1)) (ix1 r) ?_
  rw [Shape.rowMajor_val_one, Shape.rowMajor_val_two]
  show r.val = r.val * 1 + 0
  omega

end Layout

/-! ## The two reductions over the slots -/

/-- Putting slot m back into row r of the [1024, 64] scores gives (r, m). -/
theorem lift_slot (h : S1024x64.Reduces [1] S1024) (r : Fin 1024) (m : Fin 64) : h.lift (ix1 r) m = ix2 r m :=
  funext fun a => Fin.ext (by match a with | ⟨0, _⟩ => rfl | ⟨1, _⟩ => rfl)

/-- The row maximum from −∞ is the fold of `max` over the row's 64 entries. -/
theorem slotMax_apply (v : FVec Ideal S1024x64 .f32) (h : S1024x64.Reduces [1] S1024) (hφ : FKind.Formats .f32)
    (hacc : (0xFF800000#32 : BitVec 32) = 0xFF800000#32) (r : Fin 1024) :
    multiReduction .maximumf [1] S1024 v 0xFF800000#32 h hφ hacc (ix1 r)
      = (Finset.univ : Finset (Fin 64)).fold max negInf (fun m => v (ix2 r m)) := by
  refine (Ideal.multiReduction_maximumf_single v 0xFF800000#32 h hφ hacc (ix1 r)).trans ?_
  have e : (v ∘ h.lift (ix1 r)) = fun m : Fin 64 => v (ix2 r m) :=
    funext fun (m : Fin 64) => congrArg v (lift_slot h r m)
  rw [e]
  rfl

/-- The row sum is the sum of the row's 64 entries. -/
theorem slotSum_apply (v : FVec Ideal S1024x64 .f32) (h : S1024x64.Reduces [1] S1024) (hφ : FKind.Formats .f32)
    (hacc : (0x00000000#32 : BitVec 32) = 0x00000000#32) (r : Fin 1024) :
    multiReduction .add [1] S1024 v 0x00000000#32 h hφ hacc (ix1 r) = ∑ m : Fin 64, v (ix2 r m) := by
  refine (Ideal.multiReduction_add_single v 0x00000000#32 h hφ hacc (ix1 r)).trans ?_
  exact Finset.sum_congr rfl fun (m : Fin 64) _ => congrArg v (lift_slot h r m)

/-! ## The two matrix products, as sums over the contracted coordinate

The scores contract the last axis of both operands (rows against key rows); the combination contracts the slots, the
last axis of the weights against the first axis of the value table. -/

theorem scoreLhs_0 (i : S1024x64.Idx) (q : dot_S1024x640_S64x640_S1024x64_1_1_0_0_n_n.contr.Idx) :
    (dot_S1024x640_S64x640_S1024x64_1_1_0_0_n_n.lhsIdx i q 0).val = (i 0).val := by
  unfold DotDims.lhsIdx
  rw [dif_neg (show ¬(0 : Fin S1024x640.rank) ∈ dot_S1024x640_S64x640_S1024x64_1_1_0_0_n_n.lhsBatch by decide), dif_pos (show (0 : Fin S1024x640.rank) ∈ dot_S1024x640_S64x640_S1024x64_1_1_0_0_n_n.lhsNonContracting by decide)]
  rfl
theorem scoreLhs_1 (i : S1024x64.Idx) (q : dot_S1024x640_S64x640_S1024x64_1_1_0_0_n_n.contr.Idx) :
    (dot_S1024x640_S64x640_S1024x64_1_1_0_0_n_n.lhsIdx i q 1).val = (q ⟨0, by decide⟩).val :=
  dot_S1024x640_S64x640_S1024x64_1_1_0_0_n_n.lhsIdx_val_of_single rfl i q
theorem scoreRhs_0 (i : S1024x64.Idx) (q : dot_S1024x640_S64x640_S1024x64_1_1_0_0_n_n.contr.Idx) :
    (dot_S1024x640_S64x640_S1024x64_1_1_0_0_n_n.rhsIdx i q 0).val = (i 1).val := by
  unfold DotDims.rhsIdx
  rw [dif_neg (show ¬(0 : Fin S64x640.rank) ∈ dot_S1024x640_S64x640_S1024x64_1_1_0_0_n_n.rhsBatch by decide), dif_pos (show (0 : Fin S64x640.rank) ∈ dot_S1024x640_S64x640_S1024x64_1_1_0_0_n_n.rhsNonContracting by decide)]
  rfl
theorem scoreRhs_1 (i : S1024x64.Idx) (q : dot_S1024x640_S64x640_S1024x64_1_1_0_0_n_n.contr.Idx) :
    (dot_S1024x640_S64x640_S1024x64_1_1_0_0_n_n.rhsIdx i q 1).val = (q ⟨0, by decide⟩).val :=
  dot_S1024x640_S64x640_S1024x64_1_1_0_0_n_n.rhsIdx_val_of_single rfl i q

/-- The score product into zeros, at (r, m): the inner product of row r of the left operand and row m of the right. -/
theorem scoreProduct_apply (l : FVec Ideal S1024x640 .bf16) (w : FVec Ideal S64x640 .bf16) (r : Fin 1024) (m : Fin 64) :
    matmul dot_S1024x640_S64x640_S1024x64_1_1_0_0_n_n none l w (constant S1024x64 .f32 0x00000000#32) (ix2 r m)
      = ∑ k : Fin 640, l (ix2 r k) * w (ix2 m k) := by
  show FloatOps.matmul dot_S1024x640_S64x640_S1024x64_1_1_0_0_n_n none l w (constant S1024x64 .f32 0x00000000#32) (ix2 r m) = _
  rw [Ideal.matmul_constant_zero_apply, ← Equiv.sum_comp (contrEquiv1 dot_S1024x640_S64x640_S1024x64_1_1_0_0_n_n 640 rfl rfl).symm]
  refine Finset.sum_congr rfl fun k _ => ?_
  have hk := contrEquiv1_symm_val dot_S1024x640_S64x640_S1024x64_1_1_0_0_n_n 640 rfl rfl k
  have el : dot_S1024x640_S64x640_S1024x64_1_1_0_0_n_n.lhsIdx (ix2 r m) ((contrEquiv1 dot_S1024x640_S64x640_S1024x64_1_1_0_0_n_n 640 rfl rfl).symm k) = ix2 r k := funext fun a => Fin.ext (by
    match a with
    | ⟨0, _⟩ => exact scoreLhs_0 _ _
    | ⟨1, _⟩ => exact (scoreLhs_1 _ _).trans hk)
  have er : dot_S1024x640_S64x640_S1024x64_1_1_0_0_n_n.rhsIdx (ix2 r m) ((contrEquiv1 dot_S1024x640_S64x640_S1024x64_1_1_0_0_n_n 640 rfl rfl).symm k) = ix2 m k := funext fun a => Fin.ext (by
    match a with
    | ⟨0, _⟩ => exact scoreRhs_0 _ _
    | ⟨1, _⟩ => exact (scoreRhs_1 _ _).trans hk)
  rw [el, er]

theorem mixLhs_0 (i : S1024x640.Idx) (q : dot_S1024x64_S64x640_S1024x640_1_0_0_1_n_n.contr.Idx) :
    (dot_S1024x64_S64x640_S1024x640_1_0_0_1_n_n.lhsIdx i q 0).val = (i 0).val := by
  unfold DotDims.lhsIdx
  rw [dif_neg (show ¬(0 : Fin S1024x64.rank) ∈ dot_S1024x64_S64x640_S1024x640_1_0_0_1_n_n.lhsBatch by decide), dif_pos (show (0 : Fin S1024x64.rank) ∈ dot_S1024x64_S64x640_S1024x640_1_0_0_1_n_n.lhsNonContracting by decide)]
  rfl
theorem mixLhs_1 (i : S1024x640.Idx) (q : dot_S1024x64_S64x640_S1024x640_1_0_0_1_n_n.contr.Idx) :
    (dot_S1024x64_S64x640_S1024x640_1_0_0_1_n_n.lhsIdx i q 1).val = (q ⟨0, by decide⟩).val :=
  dot_S1024x64_S64x640_S1024x640_1_0_0_1_n_n.lhsIdx_val_of_single rfl i q
theorem mixRhs_0 (i : S1024x640.Idx) (q : dot_S1024x64_S64x640_S1024x640_1_0_0_1_n_n.contr.Idx) :
    (dot_S1024x64_S64x640_S1024x640_1_0_0_1_n_n.rhsIdx i q 0).val = (q ⟨0, by decide⟩).val :=
  dot_S1024x64_S64x640_S1024x640_1_0_0_1_n_n.rhsIdx_val_of_single rfl i q
theorem mixRhs_1 (i : S1024x640.Idx) (q : dot_S1024x64_S64x640_S1024x640_1_0_0_1_n_n.contr.Idx) :
    (dot_S1024x64_S64x640_S1024x640_1_0_0_1_n_n.rhsIdx i q 1).val = (i 1).val := by
  unfold DotDims.rhsIdx
  rw [dif_neg (show ¬(1 : Fin S64x640.rank) ∈ dot_S1024x64_S64x640_S1024x640_1_0_0_1_n_n.rhsBatch by decide), dif_pos (show (1 : Fin S64x640.rank) ∈ dot_S1024x64_S64x640_S1024x640_1_0_0_1_n_n.rhsNonContracting by decide)]
  rfl

/-- The combining product into zeros, at (r, d): the weights of row r against column d of the value table. -/
theorem mixProduct_apply (l : FVec Ideal S1024x64 .bf16) (w : FVec Ideal S64x640 .bf16) (r : Fin 1024) (d : Fin 640) :
    matmul dot_S1024x64_S64x640_S1024x640_1_0_0_1_n_n none l w (constant S1024x640 .f32 0x00000000#32) (ix2 r d)
      = ∑ m : Fin 64, l (ix2 r m) * w (ix2 m d) := by
  show FloatOps.matmul dot_S1024x64_S64x640_S1024x640_1_0_0_1_n_n none l w (constant S1024x640 .f32 0x00000000#32) (ix2 r d) = _
  rw [Ideal.matmul_constant_zero_apply, ← Equiv.sum_comp (contrEquiv1 dot_S1024x64_S64x640_S1024x640_1_0_0_1_n_n 64 rfl rfl).symm]
  refine Finset.sum_congr rfl fun k _ => ?_
  have hk := contrEquiv1_symm_val dot_S1024x64_S64x640_S1024x640_1_0_0_1_n_n 64 rfl rfl k
  have el : dot_S1024x64_S64x640_S1024x640_1_0_0_1_n_n.lhsIdx (ix2 r d) ((contrEquiv1 dot_S1024x64_S64x640_S1024x640_1_0_0_1_n_n 64 rfl rfl).symm k) = ix2 r k := funext fun a => Fin.ext (by
    match a with
    | ⟨0, _⟩ => exact mixLhs_0 _ _
    | ⟨1, _⟩ => exact (mixLhs_1 _ _).trans hk)
  have er : dot_S1024x64_S64x640_S1024x640_1_0_0_1_n_n.rhsIdx (ix2 r d) ((contrEquiv1 dot_S1024x64_S64x640_S1024x640_1_0_0_1_n_n 64 rfl rfl).symm k) = ix2 k d := funext fun a => Fin.ext (by
    match a with
    | ⟨0, _⟩ => exact (mixRhs_0 _ _).trans hk
    | ⟨1, _⟩ => exact mixRhs_1 _ _)
  rw [el, er]

/-! ## The body's stages, and its stored block at an index -/

/-- The block's [1024, 64] scores: the block's rows against the key rows. -/
def scoreBlock (x0 : Vec Ideal S1x1024x640 .f32) (x1 : Vec Ideal S64x640 .f32) : FVec Ideal S1024x64 .f32 :=
  matmul dot_S1024x640_S64x640_S1024x64_1_1_0_0_n_n none
    (truncf .bf16 (shapeCast S1024x640 x0 shapeCasts_S1x1024x640_S1024x640) bitsLt_bf16_f32)
    (truncf .bf16 x1 bitsLt_bf16_f32) (constant S1024x64 .f32 0x00000000#32)

/-- Each row's shift: its maximum over the slots from −∞, once more against −∞. -/
def peakBlock (s : FVec Ideal S1024x64 .f32) : FVec Ideal S1024 .f32 :=
  maximumf (broadcast S1024 (Scalar.ofBits .f32 0xFF800000#32))
    (multiReduction .maximumf [1] S1024 s 0xFF800000#32 reduces_S1024x64_S1024 (.inl rfl) rfl)

/-- The shifted exponentials. -/
def shiftedBlock (s : FVec Ideal S1024x64 .f32) : FVec Ideal S1024x64 .f32 :=
  exp (subf s (broadcastTo S1024x64 (shapeCast S1024x1 (peakBlock s) shapeCasts_S1024_S1024x1) broadcasts_S1024x1_S1024x64))

/-- The soft-max weights: each shifted exponential over its row's sum. -/
def weightBlock (s : FVec Ideal S1024x64 .f32) : FVec Ideal S1024x64 .f32 :=
  divf (shiftedBlock s) (broadcastTo S1024x64 (shapeCast S1024x1
    (multiReduction .add [1] S1024 (shiftedBlock s) 0x00000000#32 reduces_S1024x64_S1024 (.inl rfl) rfl)
    shapeCasts_S1024_S1024x1) broadcasts_S1024x1_S1024x64)

/-- The body's stored value is these stages composed: the weights times the value table, with the unit axis put back. -/
theorem payload_eq (x0 : Vec Ideal S1x1024x640 .f32) (x1 x2 : Vec Ideal S64x640 .f32) :
    k0_pay1 x0 x1 x2 = shapeCast S1x1024x640 (matmul dot_S1024x64_S64x640_S1024x640_1_0_0_1_n_n none
      (truncf .bf16 (weightBlock (scoreBlock x0 x1)) bitsLt_bf16_f32) (truncf .bf16 x2 bitsLt_bf16_f32)
      (constant S1024x640 .f32 0x00000000#32)) shapeCasts_S1024x640_S1x1024x640 := rfl

theorem scoreBlock_apply (x0 : Vec Ideal S1x1024x640 .f32) (x1 : Vec Ideal S64x640 .f32) (r : Fin 1024) (m : Fin 64) :
    scoreBlock x0 x1 (ix2 r m) = ∑ k : Fin 640, x0 (ix3 (0 : Fin 1) r k) * x1 (ix2 m k) := by
  unfold scoreBlock
  rw [scoreProduct_apply]
  refine Finset.sum_congr rfl fun k _ => ?_
  rw [truncf_apply, truncf_apply, dropLead_apply]

theorem peakBlock_apply (s : FVec Ideal S1024x64 .f32) (r : Fin 1024) :
    peakBlock s (ix1 r) = peak (fun m => s (ix2 r m)) := by
  unfold peakBlock peak
  rw [maximumf_apply, slotMax_apply]
  rfl

theorem shiftedBlock_apply (s : FVec Ideal S1024x64 .f32) (r : Fin 1024) (m : Fin 64) :
    shiftedBlock s (ix2 r m) = shifted (fun m' => s (ix2 r m')) m := by
  unfold shiftedBlock shifted
  show Ideal.exp (s (ix2 r m) - broadcastTo S1024x64 (shapeCast S1024x1 (peakBlock s) shapeCasts_S1024_S1024x1) broadcasts_S1024x1_S1024x64 (ix2 r m)) = _
  rw [alongSlots_apply, peakBlock_apply]

theorem weightBlock_apply (s : FVec Ideal S1024x64 .f32) (r : Fin 1024) (m : Fin 64) :
    weightBlock s (ix2 r m) = weight (fun m' => s (ix2 r m')) m := by
  unfold weightBlock weight
  rw [divf_apply, alongSlots_apply, slotSum_apply, shiftedBlock_apply]
  exact congrArg (Ideal.div _) (Finset.sum_congr rfl fun k _ => shiftedBlock_apply s r k)

/-- ENTRY (0, r, d) OF THE STORED BLOCK is the row attention of row r of the loaded block: the soft-max weights of its
    64 scores against the key table, combined with column d of the value table. -/
theorem block_value (x0 : Vec Ideal S1x1024x640 .f32) (x1 x2 : Vec Ideal S64x640 .f32) (r : Fin 1024) (d : Fin 640) :
    k0_pay1 x0 x1 x2 (ix3 (0 : Fin 1) r d)
      = combine (fun m => ∑ k : Fin 640, x0 (ix3 (0 : Fin 1) r k) * x1 (ix2 m k)) (fun m => x2 (ix2 m d)) := by
  rw [payload_eq, addLead_apply, mixProduct_apply]
  unfold combine
  refine Finset.sum_congr rfl fun m _ => ?_
  rw [truncf_apply, truncf_apply, weightBlock_apply]
  have e : (fun m' => scoreBlock x0 x1 (ix2 r m')) = fun m' => ∑ k : Fin 640, x0 (ix3 (0 : Fin 1) r k) * x1 (ix2 m' k) :=
    funext fun m' => scoreBlock_apply x0 x1 r m'
  rw [e]

end Cert.KernelIdeal.BlockRows

end
-- ==== Proof.WholeArray.lean ====
/-
  From blocks to the array: what the kernel leaves in its result array.

  The grid has 16 × 4 points; point (i, j) stages rows 1024·j … 1024·j + 1023 of batch entry i of `x` (a [1, 1024, 640]
  block), the whole key table and the whole value table, and writes back the block of the result at the same place.
  By `BlockRows.block_value` entry (0, r, d) of what a point stores is the row attention of row r of ITS block, which is
  row 1024·j + r of batch entry i of `x`: so every point writes back its block of ONE whole-array function, the row
  attention `attend` of the three argument arrays. The 64 blocks tile the array (row n lies in block n / 1024), so the
  array ends holding `attend` everywhere.
-/
import proofs.«136272_j88072599372329_1_alg».proof.Proof.Gen.KernelIdeal.Value
import proofs.«136272_j88072599372329_1_alg».proof.Proof.BlockRows
import Idealize.ShloMosaic.Lib.Pipeline.Value
import Idealize.ShloMosaic.Lib.ValueIdx

noncomputable section

open scoped BigOperators

namespace Cert.KernelIdeal.WholeArray

open Cert.KernelIdeal Cert.KernelIdeal.Gen
open Idealize.ShloMosaic Idealize.ShloMosaic.TcCoe Idealize.SL.Sem Idealize.ShloMosaic.ValueIdx Cert.RowAttention
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- Entry y of the stored block, for any index y of the block (its leading coordinate can only be 0). -/
theorem block_value_at (x0 : Vec Ideal S1x1024x640 .f32) (x1 x2 : Vec Ideal S64x640 .f32) (y : S1x1024x640.Idx) :
    k0_pay1 x0 x1 x2 y
      = combine (fun m' => ∑ k : Fin 640, x0 (ix3 (0 : Fin 1) (y 1) k) * x1 (ix2 m' k)) (fun m' => x2 (ix2 m' (y 2))) := by
  have hy : y = ix3 (0 : Fin 1) (y 1) (y 2) := funext fun a => by
    match a with
    | ⟨0, _⟩ => exact Fin.ext (by have h : (y 0).val < 1 := (y 0).isLt; show (y 0).val = 0; omega)
    | ⟨1, _⟩ => rfl
    | ⟨2, _⟩ => rfl
  exact (congrArg (k0_pay1 x0 x1 x2) hy).trans (BlockRows.block_value x0 x1 x2 (y 1) (y 2))

/-- The printed index maps, decided over the 64 grid points: the block of `x` moves with the result's block along the
    batch and row axes and stays at 0 along the last; the two tables never move. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (batch entry, row block) pair is some point's. -/
theorem index_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- WHAT POINT t WRITES BACK is block t of the row attention of the argument arrays as the region finds them. -/
theorem flushed_eq (c : Dev nD) (t : Fin cfg0.N) :
    (dats m 0 c).flushed 3 t
      = ((cfg0.win 3).blk t).view.read (Elt Ideal) (attend (V m c main_arg0) (V m c main_arg1) (V m c main_arg2)) := by
  rw [Value.flushed3]
  unfold out0_3
  rw [View.canon_unit_zero zeros3]
  simp only [View.ld_unit_zero (S := S1x1024x640) zeros3, View.ld_unit_zero (S := S64x640) zeros2]
  obtain ⟨e00, e01, e02, e32, e10, e11, e20, e21⟩ := index_facts t
  funext y
  show k0_pay1 (iblk m c 0 t) (iblk m c 1 t) (iblk m c 2 t) y
    = attend (V m c main_arg0) (V m c main_arg1) (V m c main_arg2) (((cfg0.win 3).blk t).view.emb y)
  refine (block_value_at (iblk m c 0 t) (iblk m c 1 t) (iblk m c 2 t) y).trans ?_
  show combine _ _ = combine _ _
  have hy0 : (y 0).val < 1 := (y 0).isLt
  have hrow : ∀ k : Fin 640, iblk m c 0 t (ix3 (0 : Fin 1) (y 1) k)
      = V m c main_arg0 (ix3 ((((cfg0.win 3).blk t).view.emb y) 0) ((((cfg0.win 3).blk t).view.emb y) 1) k) := by
    intro k
    show V m c main_arg0 (((cfg0.win 0).blk t).view.emb (ix3 (0 : Fin 1) (y 1) k)) = _
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 640 + 1 * k.val = k.val; omega
  have hkey : ∀ (m' : Fin 64) (k : Fin 640), iblk m c 1 t (ix2 m' k) = V m c main_arg1 (ix2 m' k) := by
    intro m' k
    show V m c main_arg1 (((cfg0.win 1).blk t).view.emb (ix2 m' k)) = _
    refine congrArg (V m c main_arg1) (funext fun a => Fin.ext ?_)
    match a with
    | ⟨0, _⟩ => show win0_1.index t (0 : Fin 2) * 64 + 1 * m'.val = m'.val; omega
    | ⟨1, _⟩ => show win0_1.index t (1 : Fin 2) * 640 + 1 * k.val = k.val; omega
  have hval : ∀ m' : Fin 64, iblk m c 2 t (ix2 m' (y 2))
      = V m c main_arg2 (ix2 m' ((((cfg0.win 3).blk t).view.emb y) 2)) := by
    intro m'
    show V m c main_arg2 (((cfg0.win 2).blk t).view.emb (ix2 m' (y 2))) = _
    refine congrArg (V m c main_arg2) (funext fun a => Fin.ext ?_)
    match a with
    | ⟨0, _⟩ => show win0_2.index t (0 : Fin 2) * 64 + 1 * m'.val = m'.val; omega
    | ⟨1, _⟩ => show win0_2.index t (1 : Fin 2) * 640 + 1 * (y 2).val = win0_3.index t (2 : Fin 3) * 640 + 1 * (y 2).val; omega
  congr 1
  · funext m'
    exact Finset.sum_congr rfl fun k _ => by rw [hrow k, hkey m' k]
  · funext m'
    exact hval m'

/-- An index of the array is in point t's block iff each coordinate is in the block's range on its axis. -/
theorem mem_block (t : Fin cfg0.N) (i : S16x4096x640.Idx) :
    i ∈ ((cfg0.win 3).blk t).view.set ↔ ∀ a : Fin 3, win0_3.index t a * S1x1024x640.size a ≤ (i a).val
      ∧ (i a).val < win0_3.index t a * S1x1024x640.size a + S1x1024x640.size a := by
  show i ∈ ((View.whole main_v0).slice (win0_3.rect t)).set ↔ _
  rw [View.set_slice_whole, Rect.mem_set_unit]
  exact Iff.rfl

/-- The blocks tile the array: index (b, n, d) lies in the block of the point with batch entry b and row block n / 1024. -/
theorem covered (i : S16x4096x640.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 640 := (i 2).isLt
  obtain ⟨t, ht⟩ := index_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 640 ≤ (i 2).val ∧ (i 2).val < win0_3.index t (2 : Fin 3) * 640 + 640; omega

/-- THE ARRAY after the run is the row attention of the three argument arrays. -/
theorem final (c : Dev nD) :
    (dats m 0 c).arrAt 3 cfg0.N
      = attend (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, with its result array named: the row attention of the arguments, which end unchanged. -/
theorem run : θ_run defs (onTc (τ := τ) (main (F := Ideal))) ⟨m, fun _ => 0, ρ⟩ fun r => ∀ c : Dev nD,
      r.2.mem ((c : Thread nD τ).loc main_v0)
        = attend (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.WholeArray

end
-- ==== Proof.lean ====
/-
  The kernel and its reference compute one function: row-wise soft-max attention over a memory of 64 slots.

  For `x : [16, 4096, 640]`, a key table `Mk : [64, 640]` and a value table `Mv : [64, 640]`, both programs produce
  `out[b, n, d] = ∑ m, w[b, n, m] · Mv[m, d]`, where `w[b, n, ·]` is the soft-max of the 64 scores
  `s[b, n, m] = ∑ k, x[b, n, k] · Mk[m, k]`, shifted by the row's maximum (taken from −∞, and once more against −∞).
  `RowAttention.lean` writes this function down once (`attend`).

  The kernel walks a 16 × 4 grid; each point handles 1024 rows of one batch entry, with both tables resident. Its
  narrowing of the operands before the two matrix products is the identity on the ideal values, and a matrix product
  into a zero accumulator is the plain sum of products, so one block's result is `attend` restricted to the block's
  rows (`BlockRows.lean`), and since the blocks tile the array, the array ends holding `attend` (`WholeArray.lean`).
  The reference performs the same steps on whole arrays; read at an index, each of its stages names the same row
  (`HostRows.lean`). The two sides differ only by the tiling and by the neutral `0 +` the host puts before its sum,
  so the equality needs no finiteness of the inputs.

  The three frames: the kernel's two are the generated frame runs; the reference's is its run with the result dropped.
  The idealization rewrote no operation, so `preserves` is trivial.
-/
import proofs.«136272_j88072599372329_1_alg».proof.Defs
import proofs.«136272_j88072599372329_1_alg».proof.Proof.Gen.Kernel
import proofs.«136272_j88072599372329_1_alg».proof.Proof.Gen.Kernel.Skeleton
import proofs.«136272_j88072599372329_1_alg».proof.Proof.Gen.Kernel.Launch
import proofs.«136272_j88072599372329_1_alg».proof.Proof.Gen.Kernel.Points
import proofs.«136272_j88072599372329_1_alg».proof.Proof.Gen.Kernel.Frame
import proofs.«136272_j88072599372329_1_alg».proof.Proof.Gen.KernelIdeal
import proofs.«136272_j88072599372329_1_alg».proof.Proof.Gen.KernelIdeal.Skeleton
import proofs.«136272_j88072599372329_1_alg».proof.Proof.Gen.KernelIdeal.Launch
import proofs.«136272_j88072599372329_1_alg».proof.Proof.Gen.KernelIdeal.Points
import proofs.«136272_j88072599372329_1_alg».proof.Proof.Gen.KernelIdeal.Frame
import proofs.«136272_j88072599372329_1_alg».proof.Proof.Gen.ReferenceIdeal
import proofs.«136272_j88072599372329_1_alg».proof.Proof.Gen.KernelIdeal.Value
import proofs.«136272_j88072599372329_1_alg».proof.Proof.Gen.ReferenceIdeal.Run
import proofs.«136272_j88072599372329_1_alg».proof.Proof.Gen.ReferenceIdeal.Read
import proofs.«136272_j88072599372329_1_alg».proof.Proof.Gen.Pre_finite_inputs
import proofs.«136272_j88072599372329_1_alg».proof.Proof.RowAttention
import proofs.«136272_j88072599372329_1_alg».proof.Proof.HostRows
import proofs.«136272_j88072599372329_1_alg».proof.Proof.BlockRows
import proofs.«136272_j88072599372329_1_alg».proof.Proof.WholeArray
import Idealize.ShloMosaic.Adequacy
import Idealize.ShloMosaic.Init

noncomputable section

namespace Cert.Proof

open Idealize.ShloMosaic Idealize.SL.Sem

/-- The word-level kernel runs and leaves its arguments as they were: the generated frame run. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the ideal reading. -/
theorem preserves : Cert.preserves_Kernel_KernelIdeal := trivial

/-- Both programs end with the row attention of their (agreeing) arguments in the result array. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.HostRows.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
